-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x256 : Shape := ⟨2, ![25000, 256]⟩
abbrev S256x256 : Shape := ⟨2, ![256, 256]⟩
abbrev S256 : Shape := ⟨1, ![256]⟩
abbrev S_ : Shape := ⟨0, ![]⟩

class Facts : Prop where
  bcast_S_S25000x256 : S_.BroadcastsInDim S25000x256 (![] : Fin 0 → Fin S25000x256.rank)
  reducesTo_S25000x256_S_d0_1 : S25000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S25000x256 .f32) (main_arg1 : FVec F S25000x256 .f32) (main_arg2 : FVec F S256x256 .f32) (main_arg3 : FVec F S256 .f32) : IVec S_ 1 :=
  let main_v0 : FVec F S25000x256 .f32 := Host.absf main_arg0
  let main_cst : FVec F S_ .f32 := constant S_ .f32 0x7F800000#32
  let main_v1 : FVec F S25000x256 .f32 := broadcastInDim S25000x256 ![] bcast_S_S25000x256 main_cst
  let main_v2 : IVec S25000x256 1 := cmpf .olt main_v0 main_v1
  let main_c : IVec S_ 1 := constantI S_ 1 1#1
  let main_v3 : IVec S_ 1 := (fun x v => Host.reduce IntOp.andi x v reducesTo_S25000x256_S_d0_1 h_S_) main_v2 main_c
  let main_v4 : FVec F S25000x256 .f32 := Host.absf main_arg1
  let main_cst_0 : FVec F S_ .f32 := constant S_ .f32 0x7F800000#32
  let main_v5 : FVec F S25000x256 .f32 := broadcastInDim S25000x256 ![] bcast_S_S25000x256 main_cst_0
  let main_v6 : IVec S25000x256 1 := cmpf .olt main_v4 main_v5
  let main_c_1 : IVec S_ 1 := constantI S_ 1 1#1
  let main_v7 : IVec S_ 1 := (fun x v => Host.reduce IntOp.andi x v reducesTo_S25000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S25000x256 : Shape := ⟨2, ![25000, 256]⟩
abbrev S256x256 : Shape := ⟨2, ![256, 256]⟩
abbrev S256 : Shape := ⟨1, ![256]⟩
abbrev S1x256 : Shape := ⟨2, ![1, 256]⟩
abbrev S2x25000x256 : Shape := ⟨3, ![2, 25000, 256]⟩
abbrev S1000x256 : Shape := ⟨2, ![1000, 256]⟩
abbrev S2x1000x256 : Shape := ⟨3, ![2, 1000, 256]⟩
abbrev S1x1000x256 : Shape := ⟨3, ![1, 1000, 256]⟩
abbrev S50000x256 : Shape := ⟨2, ![50000, 256]⟩

abbrev nBuf : Space → Nat
  | .hbm => 7
  | .vmem => 8
  | .smem => 0
  | _ => 0

abbrev bufTy : (tb : Table) → Fin (tcTables nBuf tb) → BufTy
  | .hbm, ⟨0, _⟩ => ⟨S25000x256, .f32⟩
  | .hbm, ⟨1, _⟩ => ⟨S25000x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S2x25000x256, .f32⟩
  | .hbm, ⟨6, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S1x256, .f32⟩
  | .local _ .vmem, ⟨6, _⟩ => ⟨S2x1000x256, .f32⟩
  | .local _ .vmem, ⟨7, _⟩ => ⟨S2x1000x256, .f32⟩
  | _, _ => ⟨S25000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x256_S1000x256_0_0 : ∀ a, (![0, 0] : Fin 2 → Nat) a + S1000x256.size a ≤ S1000x256.size a
  h_S1000x256 : 0 < S1000x256.numel
  broadcasts_S1x256_S1000x256 : S1x256.Broadcasts S1000x256
  inb_S2x1000x256_S1x1000x256_0_0_0 : ∀ a, (![0, 0, 0] : Fin 3 → Nat) a + S1x1000x256.size a ≤ S2x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S2x1000x256_S1x1000x256_1_0_0 : ∀ a, (![1, 0, 0] : Fin 3 → Nat) a + S1x1000x256.size a ≤ S2x1000x256.size a
  shapeCasts_S2x25000x256_S50000x256 : S2x25000x256.ShapeCasts S50000x256
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S25000x256.size a
  hwx0_0 : ∀ i : grid0.Coords, EltTy.bits .f32 = 32 ∨ (Rect.block (s := S25000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S25000x256.size a
  hwx0_1 : ∀ i : grid0.Coords, EltTy.bits .f32 = 32 ∨ (Rect.block (s := S25000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1000x256.size a ≤ S2x25000x256.size a
  hwx0_4 : ∀ i : grid0.Coords, EltTy.bits .f32 = 32 ∨ (Rect.block (s := S2x25000x256) S2x1000x256.size (cc0_transform_4 i) (hinb0_4 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S25000x256 : Shape := ⟨2, ![25000, 256]⟩
abbrev S256x256 : Shape := ⟨2, ![256, 256]⟩
abbrev S256 : Shape := ⟨1, ![256]⟩
abbrev S50000x256 : Shape := ⟨2, ![50000, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S25000x256, .f32⟩
  | .hbm, ⟨1, _⟩ => ⟨S25000x256, .f32⟩
  | .hbm, ⟨2, _⟩ => ⟨S256x256, .f32⟩
  | .hbm, ⟨3, _⟩ => ⟨S256, .f32⟩
  | .hbm, ⟨4, _⟩ => ⟨S50000x256, .f32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | _, _ => ⟨S25000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  concatenates_S25000x256_S25000x256_S50000x256_d0 : Shape.Concatenates [S25000x256, S25000x256] S50000x256 0
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Body.lean ====
/-
  What one grid step leaves in the output block. The step multiplies its block of the first row array and its block
  of the second row array by the whole weight matrix, adds the bias row to every row of each product, and stores the
  first result as member 0 and the second as member 1 of a [2, 1000, 256] block. Entry (h, p, q) of the block is
  therefore (∑ k, x(p, k) · W(k, q)) + b(0, q), with x the first block when h = 0 and the second when h = 1.
-/
import proofs.«106514_g17257178595387_cont_8to1_146_2_alg».proof.Proof.Gen.KernelIdeal.Frame
import proofs.«106514_g17257178595387_cont_8to1_146_2_alg».proof.Proof.LibDot
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The value stored as member 0, at entry (p, q): the product's entry plus the bias at q. -/
theorem first_payload (W : Vec Ideal S256x256 .f32) (b : Vec Ideal S1x256 .f32) (X : Vec Ideal S1000x256 .f32)
    (u : Fin 1) (p : Fin 1000) (q : Fin 256) :
    k0_pay2 (F := Ideal) W b X (ix3 u p q) = (∑ k : Fin 256, X (ix2 p k) * W (ix2 k q)) + b (ix2 (0 : Fin 1) q) := by
  unfold k0_pay2 k0_pay1
  dsimp only
  rw [shapeCast_ab_1ab_apply, addf_apply, shapeCast_self, broadcastTo_1b_ab_apply]
  exact congrArg (· + b (ix2 (0 : Fin 1) q))
    (Cert.LibDot.matmul_zero_at dot_S1000x256_S256x256_S1000x256_1_0_0_1_n_n rfl rfl rfl rfl rfl rfl none _ W p q)

/-- The value stored as member 1, at entry (p, q): the same function of the second block. -/
theorem second_payload (W : Vec Ideal S256x256 .f32) (b : Vec Ideal S1x256 .f32) (Y : Vec Ideal S1000x256 .f32)
    (u : Fin 1) (p : Fin 1000) (q : Fin 256) :
    k0_pay3 (F := Ideal) W b Y (ix3 u p q) = (∑ k : Fin 256, Y (ix2 p k) * W (ix2 k q)) + b (ix2 (0 : Fin 1) q) := by
  unfold k0_pay3 k0_pay1
  dsimp only
  rw [shapeCast_ab_1ab_apply, addf_apply, shapeCast_self, broadcastTo_1b_ab_apply]
  exact congrArg (· + b (ix2 (0 : Fin 1) q))
    (Cert.LibDot.matmul_zero_at dot_S1000x256_S256x256_S1000x256_1_0_0_1_n_n rfl rfl rfl rfl rfl rfl none _ W p q)

theorem zero2 : (![0, 0] : Fin 2 → Nat) = fun _ => 0 := funext fun a => by fin_cases a <;> rfl

/-- An entry of member 0 lies outside the part of the block the later store writes (member 1). -/
theorem first_not_in_second (p : Fin 1000) (q : Fin 256) : (ix3 (0 : Fin 2) p q : S2x1000x256.Idx) ∉ r0_4.set := by
  intro hm
  have h1 : (1 : Nat) ≤ 0 := ((Rect.mem_set_unit.mp hm) (0 : Fin 3)).1
  omega

/-- So at an entry of member 0 the later store leaves what the earlier store put there. -/
theorem block_first_earlier (x0 x1 : Vec Ideal S1000x256 .f32) (x2 : Vec Ideal S256x256 .f32) (x3 : Vec Ideal S1x256 .f32)
    (p : Fin 1000) (q : Fin 256) :
    out0_4 (F := Ideal) x0 x1 x2 x3 (ix3 (0 : Fin 2) p q)
      = View.canon [⟨r0_3, k0_pay2 (View.ld x2 r0_0) (View.ld x3 r0_1) (View.ld x0 r0_2)⟩] (ix3 (0 : Fin 2) p q) := by
  unfold out0_4
  exact View.canon_cons_of_not_mem _ _ (first_not_in_second p q)

/-- Entry (0, p, q) of the block is entry (0, p, q) of the part the earlier store writes. -/
theorem first_emb (p : Fin 1000) (q : Fin 256) :
    (ix3 (0 : Fin 2) p q : S2x1000x256.Idx) = r0_3.emb (ix3 (0 : Fin 1) p q : S1x1000x256.Idx) :=
  funext fun a => Fin.ext (by
    match a with
    | ⟨0, _⟩ => rfl
    | ⟨1, _⟩ => show p.val = 0 + 1 * p.val; omega
    | ⟨2, _⟩ => show q.val = 0 + 1 * q.val; omega)

/-- Member 0 of the block after the step. -/
theorem block_first (x0 x1 : Vec Ideal S1000x256 .f32) (x2 : Vec Ideal S256x256 .f32) (x3 : Vec Ideal S1x256 .f32)
    (p : Fin 1000) (q : Fin 256) :
    out0_4 (F := Ideal) x0 x1 x2 x3 (ix3 (0 : Fin 2) p q)
      = (∑ k : Fin 256, x0 (ix2 p k) * x2 (ix2 k q)) + x3 (ix2 (0 : Fin 1) q) := by
  rw [block_first_earlier, first_emb, View.canon_cons_emb]
  simp only [View.ld_unit_zero (S := S256x256) zero2, View.ld_unit_zero (S := S1x256) zero2,
    View.ld_unit_zero (S := S1000x256) zero2]
  exact first_payload x2 x3 x0 0 p q

/-- Member 1 of the block after the step: what the later store put there. -/
theorem block_second (x0 x1 : Vec Ideal S1000x256 .f32) (x2 : Vec Ideal S256x256 .f32) (x3 : Vec Ideal S1x256 .f32)
    (p : Fin 1000) (q : Fin 256) :
    out0_4 (F := Ideal) x0 x1 x2 x3 (ix3 (1 : Fin 2) p q)
      = (∑ k : Fin 256, x1 (ix2 p k) * x2 (ix2 k q)) + x3 (ix2 (0 : Fin 1) q) := by
  unfold out0_4
  have hin : (ix3 (1 : Fin 2) p q : S2x1000x256.Idx) = r0_4.emb (ix3 (0 : Fin 1) p q : S1x1000x256.Idx) :=
    funext fun a => Fin.ext (by
      match a with
      | ⟨0, _⟩ => rfl
      | ⟨1, _⟩ => show p.val = 0 + 1 * p.val; omega
      | ⟨2, _⟩ => show q.val = 0 + 1 * q.val; omega)
  rw [hin, View.canon_cons_emb]
  simp only [View.ld_unit_zero (S := S256x256) zero2, View.ld_unit_zero (S := S1x256) zero2,
    View.ld_unit_zero (S := S1000x256) zero2]
  exact second_payload x2 x3 x1 0 p q

end Cert.KernelIdeal.Body

end
-- ==== Proof.Affine.lean ====
/-
  The dense layer as a function of indices, over the extended reals.

  For a row array X (n rows of 256), a weight matrix W (256 by 256) and a bias b (256 numbers), entry (r, q) of
  X·W + b is (∑ k, X(r, k) · W(k, q)) + b(q). Two row arrays X and Y of 25000 rows each are projected by the same W
  and b in two arrangements: STACKED, a [2, 25000, 256] array whose member 0 is the projection of X and whose member 1
  that of Y; and JOINED, the [50000, 256] array whose first 25000 rows are the projection of X and whose last 25000
  rows that of Y, which is the projection of X and Y joined along the rows. Reading the stacked array in row-major
  order at the joined shape gives the joined array: position (h · 25000 + r) · 256 + q is row h · 25000 + r, column q.
-/
import Idealize.ShloMosaic.PureOps.Ideal
import Idealize.ShloMosaic.Lib.ValueIdx
import Idealize.ShloMosaic.Lib.Pipeline.Value

noncomputable section

open scoped BigOperators

namespace Cert.Affine

open Idealize.ShloMosaic Idealize.ShloMosaic.ValueIdx

/-- Entry (r, q) of X·W + b. -/
def entry {n : Nat} (X : (⟨2, ![n, 256]⟩ : Shape).Idx → EReal) (W : (⟨2, ![256, 256]⟩ : Shape).Idx → EReal)
    (b : Fin 256 → EReal) (r : Fin n) (q : Fin 256) : EReal :=
  (∑ k : Fin 256, X (ix2 r k) * W (ix2 k q)) + b q

/-- The projections of X and of Y as the two members of one [2, 25000, 256] array. -/
def stacked (X Y : (⟨2, ![25000, 256]⟩ : Shape).Idx → EReal) (W : (⟨2, ![256, 256]⟩ : Shape).Idx → EReal)
    (b : Fin 256 → EReal) : (⟨3, ![2, 25000, 256]⟩ : Shape).Idx → EReal :=
  fun i => if (i 0).val = 0 then entry X W b (i 1) (i 2) else entry Y W b (i 1) (i 2)

/-- Member 0 of the stacked array is the projection of X. -/
theorem stacked_first (X Y : (⟨2, ![25000, 256]⟩ : Shape).Idx → EReal) (W : (⟨2, ![256, 256]⟩ : Shape).Idx → EReal)
    (b : Fin 256 → EReal) (p : Fin 25000) (q : Fin 256) : stacked X Y W b (ix3 (0 : Fin 2) p q) = entry X W b p q :=
  if_pos rfl

/-- Member 1 of the stacked array is the projection of Y. -/
theorem stacked_second (X Y : (⟨2, ![25000, 256]⟩ : Shape).Idx → EReal) (W : (⟨2, ![256, 256]⟩ : Shape).Idx → EReal)
    (b : Fin 256 → EReal) (p : Fin 25000) (q : Fin 256) : stacked X Y W b (ix3 (1 : Fin 2) p q) = entry Y W b p q :=
  if_neg (show ¬((1 : Fin 2).val = 0) by decide)

/-- The projection of X's rows followed by Y's rows: a [50000, 256] array. -/
def joined (X Y : (⟨2, ![25000, 256]⟩ : Shape).Idx → EReal) (W : (⟨2, ![256, 256]⟩ : Shape).Idx → EReal)
    (b : Fin 256 → EReal) : (⟨2, ![50000, 256]⟩ : Shape).Idx → EReal :=
  fun i => if h : (i 0).val < 25000 then entry X W b ⟨(i 0).val, h⟩ ⟨(i 1).val, idx2_lt1 i⟩
    else entry Y W b ⟨(i 0).val - 25000, by have := idx2_lt0 i; omega⟩ ⟨(i 1).val, idx2_lt1 i⟩

/-- The stacked array read in row-major order at [50000, 256] is the joined array. -/
theorem shapeCast_stacked (X Y : (⟨2, ![25000, 256]⟩ : Shape).Idx → EReal) (W : (⟨2, ![256, 256]⟩ : Shape).Idx → EReal)
    (b : Fin 256 → EReal) (h : (⟨3, ![2, 25000, 256]⟩ : Shape).ShapeCasts ⟨2, ![50000, 256]⟩) :
    shapeCast ⟨2, ![50000, 256]⟩ (stacked X Y W b) h = joined X Y W b := by
  funext i
  have hi : (i 0).val < 50000 := idx2_lt0 i
  by_cases hlt : (i 0).val < 25000
  · rw [shapeCast_apply (stacked X Y W b) h i
      (ix3 (0 : Fin 2) (⟨(i 0).val, hlt⟩ : Fin 25000) (⟨(i 1).val, idx2_lt1 i⟩ : Fin 256)) (by
        rw [Shape.rowMajor_val_three, Shape.rowMajor_val_two]
        show (0 * 25000 + (i 0).val) * 256 + (i 1).val = (i 0).val * 256 + (i 1).val
        omega), stacked_first]
    unfold joined
    rw [dif_pos hlt]
  · rw [shapeCast_apply (stacked X Y W b) h i
      (ix3 (1 : Fin 2) (⟨(i 0).val - 25000, by omega⟩ : Fin 25000) (⟨(i 1).val, idx2_lt1 i⟩ : Fin 256)) (by
        rw [Shape.rowMajor_val_three, Shape.rowMajor_val_two]
        show (1 * 25000 + ((i 0).val - 25000)) * 256 + (i 1).val = (i 0).val * 256 + (i 1).val
        omega), stacked_second]
    unfold joined
    rw [dif_neg hlt]

end Cert.Affine

end
-- ==== Proof.Blocks.lean ====
/-
  From the grid steps to the whole output array. Grid step t reads rows 1000·t … 1000·t + 999 of each row array, the
  whole weight matrix and the bias row, and writes back the block of the [2, 25000, 256] output that holds rows
  1000·t … 1000·t + 999 of both members. By the step's arithmetic that block is the matching block of the stacked
  projection of the whole row arrays. The 25 blocks tile the output (row r of either member lies in block r / 1000),
  so after the last step the output array is the stacked projection.
-/
import proofs.«106514_g17257178595387_cont_8to1_146_2_alg».proof.Proof.Body
import proofs.«106514_g17257178595387_cont_8to1_146_2_alg».proof.Proof.Affine
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The first row array, the second row array, the weight matrix and the bias row as the kernel region finds them. -/
abbrev rowsA (c : Dev nD) : Vec Ideal S25000x256 .f32 := V m c main_arg0
abbrev rowsB (c : Dev nD) : Vec Ideal S25000x256 .f32 := V m c main_arg1
abbrev weights (c : Dev nD) : Vec Ideal S256x256 .f32 := V m c main_arg2
abbrev biasRow (c : Dev nD) : Vec Ideal S1x256 .f32 := V m c main_v0

/-- The stacked projection of the arrays the region finds. -/
def target (c : Dev nD) : Vec Ideal S2x25000x256 .f32 :=
  Cert.Affine.stacked (rowsA m c) (rowsB m c) (weights m c) (fun q => biasRow m c (ix2 (0 : Fin 1) q))

/-- The grid has 25 steps. -/
theorem step_lt (t : Fin cfg0.N) : t.val < 25 := lt_of_lt_of_eq t.isLt N_0

/-- The block index of every window at every step: the row arrays' and the output's row blocks move with the step,
    the weight matrix and the bias row stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- Row p of step t's block of the first row array is row 1000·t + p of the array. -/
theorem rowsA_block (c : Dev nD) (t : Fin cfg0.N) (p : Fin 1000) (k : Fin 256) :
    iblk m c 0 t (ix2 p k) = rowsA m c (ix2 (⟨t.val * 1000 + p.val, by have := step_lt t; omega⟩ : Fin 25000) k) := by
  obtain ⟨e0, e1, -⟩ := index_maps t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1000 + 1 * p.val = t.val * 1000 + p.val; omega
  | ⟨1, _⟩ => show win0_0.index t (1 : Fin 2) * 256 + 1 * k.val = k.val; omega

/-- Row p of step t's block of the second row array is row 1000·t + p of the array. -/
theorem rowsB_block (c : Dev nD) (t : Fin cfg0.N) (p : Fin 1000) (k : Fin 256) :
    iblk m c 1 t (ix2 p k) = rowsB m c (ix2 (⟨t.val * 1000 + p.val, by have := step_lt t; omega⟩ : Fin 25000) k) := by
  obtain ⟨-, -, e2, e3, -⟩ := index_maps t
  show V m c main_arg1 (((cfg0.win 1).blk t).view.emb (ix2 p k)) = V m c main_arg1 _
  refine congrArg (V m c main_arg1) (funext fun a => Fin.ext ?_)
  match a with
  | ⟨0, _⟩ => show win0_1.index t (0 : Fin 2) * 1000 + 1 * p.val = t.val * 1000 + p.val; omega
  | ⟨1, _⟩ => show win0_1.index t (1 : Fin 2) * 256 + 1 * k.val = k.val; omega

/-- Every step's block of the weight matrix is the whole matrix. -/
theorem weights_block (c : Dev nD) (t : Fin cfg0.N) (k q : Fin 256) :
    iblk m c 2 t (ix2 k q) = weights m c (ix2 k q) := by
  obtain ⟨-, -, -, -, e4, e5, -⟩ := index_maps t
  show V m c main_arg2 (((cfg0.win 2).blk t).view.emb (ix2 k q)) = V m c main_arg2 _
  refine congrArg (V m c main_arg2) (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

/-- Every step's block of the bias row is the whole row. -/
theorem bias_block (c : Dev nD) (t : Fin cfg0.N) (q : Fin 256) :
    iblk m c 3 t (ix2 (0 : Fin 1) q) = biasRow m c (ix2 (0 : Fin 1) q) := by
  obtain ⟨-, -, -, -, -, -, e6, e7, -⟩ := index_maps t
  show V m c main_v0 (((cfg0.win 3).blk t).view.emb (ix2 (0 : Fin 1) q)) = V m c main_v0 _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- Entry y of what step t leaves in the output block is the stacked projection at the array index i that y has in
    the array: the same member, row 1000·t + (row of y), the same column. -/
theorem step_entry (c : Dev nD) (t : Fin cfg0.N) (y : S2x1000x256.Idx) (i : S2x25000x256.Idx)
    (h0 : (i 0).val = (y 0).val) (h1 : (i 1).val = t.val * 1000 + (y 1).val) (h2 : (i 2).val = (y 2).val) :
    out0_4 (F := Ideal) (iblk m c 0 t) (iblk m c 1 t) (iblk m c 2 t) (iblk m c 3 t) y = target m c i := by
  obtain ⟨h, p, q, rfl⟩ : ∃ (h : Fin 2) (p : Fin 1000) (q : Fin 256), y = ix3 h p q := ⟨y 0, y 1, y 2, eq_ix3 y⟩
  have hi : i = ix3 h (⟨t.val * 1000 + p.val, by have := step_lt t; omega⟩ : Fin 25000) q :=
    funext fun a => Fin.ext (by
      match a with
      | ⟨0, _⟩ => exact h0
      | ⟨1, _⟩ => exact h1
      | ⟨2, _⟩ => exact h2)
  rw [hi]
  unfold target
  match h with
  | ⟨0, _⟩ =>
    refine (Cert.KernelIdeal.Body.block_first (iblk m c 0 t) (iblk m c 1 t) (iblk m c 2 t) (iblk m c 3 t) p q).trans ?_
    refine Eq.trans ?_ (Cert.Affine.stacked_first _ _ _ _ _ q).symm
    unfold Cert.Affine.entry
    rw [bias_block m c t q]
    refine congrArg (· + biasRow m c (ix2 (0 : Fin 1) q)) (Finset.sum_congr rfl fun k _ => ?_)
    rw [rowsA_block m c t p k, weights_block m c t k q]
  | ⟨1, _⟩ =>
    refine (Cert.KernelIdeal.Body.block_second (iblk m c 0 t) (iblk m c 1 t) (iblk m c 2 t) (iblk m c 3 t) p q).trans ?_
    refine Eq.trans ?_ (Cert.Affine.stacked_second _ _ _ _ _ q).symm
    unfold Cert.Affine.entry
    rw [bias_block m c t q]
    refine congrArg (· + biasRow m c (ix2 (0 : Fin 1) q)) (Finset.sum_congr rfl fun k _ => ?_)
    rw [rowsB_block m c t p k, weights_block m c t k q]

/-- What step t writes back is block t of the stacked projection. -/
theorem flushed_eq (c : Dev nD) (t : Fin cfg0.N) :
    (dats m 0 c).flushed 4 t = ((cfg0.win 4).blk t).view.read (Elt Ideal) (target m c) := by
  obtain ⟨-, -, -, -, -, -, -, -, e8, e9, e10⟩ := index_maps t
  show (cfg0.win 4).cut (grid0.coords t) ((dats m 0 c).after 4 t) = _
  rw [after0_4]
  funext y
  show out0_4 (F := Ideal) (iblk m c 0 t) (iblk m c 1 t) (iblk m c 2 t) (iblk m c 3 t) y
    = target m c (((cfg0.win 4).blk t).view.emb y)
  refine step_entry m c t y _ ?_ ?_ ?_
  · show win0_4.index t (0 : Fin 3) * 2 + 1 * (y 0).val = (y 0).val; omega
  · show win0_4.index t (1 : Fin 3) * 1000 + 1 * (y 1).val = t.val * 1000 + (y 1).val; omega
  · show win0_4.index t (2 : Fin 3) * 256 + 1 * (y 2).val = (y 2).val; omega

/-- An array index lies in step t's output block iff each coordinate lies in the block's range on its axis. -/
theorem mem_block (t : Fin cfg0.N) (i : S2x25000x256.Idx) :
    i ∈ ((cfg0.win 4).blk t).view.set ↔ ∀ a : Fin 3, win0_4.index t a * S2x1000x256.size a ≤ (i a).val
      ∧ (i a).val < win0_4.index t a * S2x1000x256.size a + S2x1000x256.size a := by
  show i ∈ ((View.whole main_v1).slice (win0_4.rect t)).set ↔ _
  rw [View.set_slice_whole, Rect.mem_set_unit]
  exact Iff.rfl

/-- Every index of the output array lies in the block of the step its row divided by 1000 names. -/
theorem covered (i : S2x25000x256.Idx) :
    ∃ t : Fin cfg0.N, (cfg0.win 4).flush t = true ∧ i ∈ ((cfg0.win 4).blk t).view.set := by
  have b0 : (i 0).val < 2 := (i 0).isLt
  have b1 : (i 1).val < 25000 := (i 1).isLt
  have b2 : (i 2).val < 256 := (i 2).isLt
  have hN : (i 1).val / 1000 < cfg0.N := lt_of_lt_of_eq (by omega) N_0.symm
  obtain ⟨-, -, -, -, -, -, -, -, e8, e9, e10⟩ := index_maps ⟨(i 1).val / 1000, hN⟩
  have e9' : win0_4.index ⟨(i 1).val / 1000, hN⟩ (1 : Fin 3) = (i 1).val / 1000 := e9
  refine ⟨⟨(i 1).val / 1000, hN⟩, flush0_4 _, ?_⟩
  rw [mem_block]
  intro a
  match a with
  | ⟨0, _⟩ =>
    show win0_4.index ⟨(i 1).val / 1000, hN⟩ (0 : Fin 3) * 2 ≤ (i 0).val
      ∧ (i 0).val < win0_4.index ⟨(i 1).val / 1000, hN⟩ (0 : Fin 3) * 2 + 2
    omega
  | ⟨1, _⟩ =>
    show win0_4.index ⟨(i 1).val / 1000, hN⟩ (1 : Fin 3) * 1000 ≤ (i 1).val
      ∧ (i 1).val < win0_4.index ⟨(i 1).val / 1000, hN⟩ (1 : Fin 3) * 1000 + 1000
    omega
  | ⟨2, _⟩ =>
    show win0_4.index ⟨(i 1).val / 1000, hN⟩ (2 : Fin 3) * 256 ≤ (i 2).val
      ∧ (i 2).val < win0_4.index ⟨(i 1).val / 1000, hN⟩ (2 : Fin 3) * 256 + 256
    omega

/-- After the last step the output array is the stacked projection of the arrays the region found. -/
theorem final (c : Dev nD) : (dats m 0 c).arrAt 4 cfg0.N = target m c :=
  (dats m 0 c).arrAt_eq_of_cover 4 (target m c) (fun t _ => flushed_eq m c t) covered

end Cert.KernelIdeal.Blocks

end
-- ==== Proof.Result.lean ====
/-
  The kernel program's result. Before the kernel region the program lays the bias out as one row of 256; after it, it
  reads the [2, 25000, 256] output in row-major order as a [50000, 256] array. The region leaves the stacked
  projection of the row arrays, the weight matrix and the bias row it found; the bias row's entry (0, q) is the bias at
  q; and the stacked projection read at [50000, 256] is the joined projection. So the program ends with the joined
  projection of its four arguments, which it leaves unchanged.
-/
import proofs.«106514_g17257178595387_cont_8to1_146_2_alg».proof.Proof.Blocks
import Idealize.ShloMosaic.Lib.StableHlo.Run

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The bias row the region finds is the bias argument read in row-major order at [1, 256]. -/
theorem bias_laid_out (c : Dev nD) :
    (V m c main_v0 : S1x256.Idx → EReal)
      = shapeCast S1x256 (m ((c : Thread nD τ).loc main_arg3)) Facts₀.shapeCasts_S256_S1x256 := by
  show StableHlo.after hostOps0 (fun b => m (c, b)) (Proc.devRef .tc main_v0) = _
  after_results
  rfl

/-- Its entry (0, q) is the bias at q. -/
theorem bias_entry (c : Dev nD) (q : Fin 256) :
    Blocks.biasRow m c (ix2 (0 : Fin 1) q) = m ((c : Thread nD τ).loc main_arg3) (ix1 q) := by
  show (V m c main_v0 : S1x256.Idx → EReal) (ix2 (0 : Fin 1) q) = _
  rw [bias_laid_out]
  exact shapeCast_apply (s := S256) (t := S1x256) _ _ (ix2 (0 : Fin 1) q) (ix1 q) (by
    rw [Shape.rowMajor_val_one, Shape.rowMajor_val_two]
    show q.val = 0 * 256 + q.val
    omega)

/-- What the region leaves in its output array, in terms of the program's arguments. -/
theorem target_eq (c : Dev nD) :
    Blocks.target m c = Cert.Affine.stacked (m ((c : Thread nD τ).loc main_arg0)) (m ((c : Thread nD τ).loc main_arg1))
      (m ((c : Thread nD τ).loc main_arg2)) (fun q => m ((c : Thread nD τ).loc main_arg3) (ix1 q)) := by
  have eA : Blocks.rowsA m c = m ((c : Thread nD τ).loc main_arg0) := V_main_arg0 m c
  have eB : Blocks.rowsB m c = m ((c : Thread nD τ).loc main_arg1) := V_main_arg1 m c
  have eW : Blocks.weights m c = m ((c : Thread nD τ).loc main_arg2) := V_main_arg2 m c
  have eb : (fun q => Blocks.biasRow m c (ix2 (0 : Fin 1) q)) = fun q => m ((c : Thread nD τ).loc main_arg3) (ix1 q) :=
    funext (bias_entry m c)
  unfold Blocks.target
  rw [eA, eB, eW, eb]

/-- The program's result buffer after the lines that follow the region: the region's output read at [50000, 256]. -/
theorem tail_reads_output (c : Dev nD) :
    Pipeline.afterTail₀ cfgs (dats m) 0 (V0 m) [hostOps1] c main_v2
      = shapeCast S50000x256 ((dats m 0 c).arrAt 4 cfg0.N) Facts₀.shapeCasts_S2x25000x256_S50000x256 := by
  have e := Pipeline.withArrays_arr spec0 launch0.win.arr_inj c (V0 m c) (fun w => (dats m 0 c).arrAt w cfg0.N) 4
  unfold Pipeline.afterTail₀
  show StableHlo.after hostOps1 _ (Proc.devRef .tc main_v2) = _
  after_results
  exact congrArg (fun x => shapeCast S50000x256 x Facts₀.shapeCasts_S2x25000x256_S50000x256) e

/-- The program's result is the joined projection of its arguments. -/
theorem result_eq (c : Dev nD) :
    Pipeline.afterTail₀ cfgs (dats m) 0 (V0 m) [hostOps1] c main_v2
      = Cert.Affine.joined (m ((c : Thread nD τ).loc main_arg0)) (m ((c : Thread nD τ).loc main_arg1))
          (m ((c : Thread nD τ).loc main_arg2)) (fun q => m ((c : Thread nD τ).loc main_arg3) (ix1 q)) := by
  rw [tail_reads_output, Blocks.final, target_eq, Cert.Affine.shapeCast_stacked]

/-- Every weakly fair execution of the program terminates with the result buffer at the joined projection of the
    arguments and the arguments unchanged. -/
theorem run : θ_run defs (onTc (τ := τ) (main (F := Ideal))) ⟨m, fun _ => 0, ρ⟩ fun r => ∀ c : Dev nD,
      r.2.mem ((c.tc : Thread nD τ).loc main_v2)
        = Cert.Affine.joined (m ((c.tc : Thread nD τ).loc main_arg0)) (m ((c.tc : Thread nD τ).loc main_arg1))
            (m ((c.tc : Thread nD τ).loc main_arg2)) (fun q => m ((c.tc : Thread nD τ).loc main_arg3) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).2 main_arg3 (Pipeline.mem_restRefs_of main_arg3 (by decide) (by decide))).trans (W_main_arg3 m (dats m) c)⟩)
    (run_main m ρ)

end Cert.KernelIdeal.Result

end
-- ==== Proof.RefJoined.lean ====
/-
  The reference computes the joined projection. It joins the two row arrays along the rows, multiplies the joined
  array by the weight matrix and adds the bias broadcast down the rows. Entry (r, q) of the product reads row r of the
  joined array, which is row r of the first array when r < 25000 and row r - 25000 of the second otherwise; the bias
  term reads the bias at q.
-/
import proofs.«106514_g17257178595387_cont_8to1_146_2_alg».proof.Proof.Gen.ReferenceIdeal.Read
import proofs.«106514_g17257178595387_cont_8to1_146_2_alg».proof.Proof.Affine

noncomputable section

open scoped BigOperators

namespace Cert.ReferenceIdeal.Joined

open Cert.ReferenceIdeal Cert.ReferenceIdeal.Read Idealize.ShloMosaic Idealize.ShloMosaic.ValueIdx

/-- A row of the joined array below 25000 is that row of the first array. -/
theorem joined_low (x0 x1 : Vec Ideal S25000x256 .f32) (i : S50000x256.Idx) (k : Fin 256) (hlt : (i 0).val < 25000) :
    val_main_v0 (F := Ideal) x0 x1 (lidx_main_v1 i k) = x0 (ix2 (⟨(i 0).val, hlt⟩ : Fin 25000) k) := by
  unfold val_main_v0
  exact concatenate_pair_apply_left (0 : Fin 2) x0 x1 _ (lidx_main_v1 i k) rfl (ix2 (⟨(i 0).val, hlt⟩ : Fin 25000) k)
    (fun b => match b with | ⟨0, _⟩ => rfl | ⟨1, _⟩ => rfl)

/-- A row of the joined array from 25000 on is the row 25000 earlier of the second array. -/
theorem joined_high (x0 x1 : Vec Ideal S25000x256 .f32) (i : S50000x256.Idx) (k : Fin 256) (hge : ¬(i 0).val < 25000) :
    val_main_v0 (F := Ideal) x0 x1 (lidx_main_v1 i k)
      = x1 (ix2 (⟨(i 0).val - 25000, by have := idx2_lt0 i; omega⟩ : Fin 25000) k) := by
  unfold val_main_v0
  exact concatenate_pair_apply_right (0 : Fin 2) x0 x1 _ (lidx_main_v1 i k) rfl rfl
    (ix2 (⟨(i 0).val - 25000, by have := idx2_lt0 i; omega⟩ : Fin 25000) k)
    (fun b => match b with | ⟨0, _⟩ => fun h => absurd rfl h | ⟨1, _⟩ => fun _ => rfl)
    (by show (i 0).val - 25000 + 25000 = (i 0).val; omega)

/-- The weight entry the product reads at (i, k) is W(k, column of i). -/
theorem weight_idx (i : S50000x256.Idx) (k : Fin 256) :
    ridx_main_v1 i k = ix2 k (⟨(i 1).val, idx2_lt1 i⟩ : Fin 256) :=
  funext fun a => Fin.ext (by match a with | ⟨0, _⟩ => rfl | ⟨1, _⟩ => rfl)

/-- The bias entry the sum reads at i is the bias at the column of i. -/
theorem bias_idx (i : S50000x256.Idx) : idx_main_v2 (idx_main_v3 i) = ix1 (⟨(i 1).val, idx2_lt1 i⟩ : Fin 256) :=
  funext fun a => Fin.ext (by match a with | ⟨0, _⟩ => rfl)

/-- The reference's result is the joined projection of its arguments. -/
theorem result_eq (x0 x1 : Vec Ideal S25000x256 .f32) (x2 : Vec Ideal S256x256 .f32) (x3 : Vec Ideal S256 .f32) :
    val_main_v4 (F := Ideal) x0 x1 x2 x3 = Cert.Affine.joined x0 x1 x2 (fun q => x3 (ix1 q)) := by
  funext i
  rw [val_main_v4_apply, val_main_v1_apply, val_main_v3_apply, val_main_v2_apply, bias_idx]
  unfold Cert.Affine.joined
  by_cases hlt : (i 0).val < 25000
  · rw [dif_pos hlt]
    unfold Cert.Affine.entry
    show (∑ k : Fin 256, _) + _ = _
    refine congrArg (· + x3 (ix1 (⟨(i 1).val, idx2_lt1 i⟩ : Fin 256))) (Finset.sum_congr rfl fun k _ => ?_)
    rw [joined_low x0 x1 i k hlt, weight_idx]
  · rw [dif_neg hlt]
    unfold Cert.Affine.entry
    show (∑ k : Fin 256, _) + _ = _
    refine congrArg (· + x3 (ix1 (⟨(i 1).val, idx2_lt1 i⟩ : Fin 256))) (Finset.sum_congr rfl fun k _ => ?_)
    rw [joined_high x0 x1 i k hlt, weight_idx]

end Cert.ReferenceIdeal.Joined

end
-- ==== Proof.lean ====
/-
  A dense projection of two row arrays, kernel against reference, over the extended reals.

  The reference joins the two [25000, 256] row arrays along the rows and computes (joined rows)·W + b, a [50000, 256]
  array. The kernel never forms the joined array: grid step t multiplies rows 1000·t … 1000·t + 999 of each row array
  by W, adds b, and writes the two results into members 0 and 1 of a [2, 25000, 256] array, which the program then
  reads in row-major order as [50000, 256]. Entry (r, q) of either result is (∑ k, x(r', k) · W(k, q)) + b(q), with x
  the first row array and r' = r when r < 25000, and x the second row array and r' = r - 25000 otherwise. The sum over
  k runs in the same order on both sides and no term is moved across an addition, so the two results are equal for
  all extended-real inputs; the finiteness of the inputs is not used.

  The pieces: Affine (the projection as a function of indices, stacked and joined, and that reading the stacked one in
  row-major order gives the joined one), Body (entry (h, p, q) of what one grid step leaves), Blocks (the step's block
  is a block of the stacked projection; the 25 blocks tile the output), Result (the lines around the region; the
  program's run), RefJoined (the reference computes the joined projection), LibDot (a plain matrix product at an entry).
-/
import proofs.«106514_g17257178595387_cont_8to1_146_2_alg».proof.Defs
import proofs.«106514_g17257178595387_cont_8to1_146_2_alg».proof.Proof.Gen.Kernel
import proofs.«106514_g17257178595387_cont_8to1_146_2_alg».proof.Proof.Gen.Kernel.Skeleton
import proofs.«106514_g17257178595387_cont_8to1_146_2_alg».proof.Proof.Gen.Kernel.Launch
import proofs.«106514_g17257178595387_cont_8to1_146_2_alg».proof.Proof.Gen.Kernel.Points
import proofs.«106514_g17257178595387_cont_8to1_146_2_alg».proof.Proof.Gen.Kernel.Frame
import proofs.«106514_g17257178595387_cont_8to1_146_2_alg».proof.Proof.Gen.KernelIdeal
import proofs.«106514_g17257178595387_cont_8to1_146_2_alg».proof.Proof.Gen.KernelIdeal.Skeleton
import proofs.«106514_g17257178595387_cont_8to1_146_2_alg».proof.Proof.Gen.KernelIdeal.Launch
import proofs.«106514_g17257178595387_cont_8to1_146_2_alg».proof.Proof.Gen.KernelIdeal.Points
import proofs.«106514_g17257178595387_cont_8to1_146_2_alg».proof.Proof.Gen.KernelIdeal.Frame
import proofs.«106514_g17257178595387_cont_8to1_146_2_alg».proof.Proof.Gen.ReferenceIdeal
import proofs.«106514_g17257178595387_cont_8to1_146_2_alg».proof.Proof.Gen.Pre_finite_inputs
import proofs.«106514_g17257178595387_cont_8to1_146_2_alg».proof.Proof.Gen.ReferenceIdeal.Run
import proofs.«106514_g17257178595387_cont_8to1_146_2_alg».proof.Proof.Gen.ReferenceIdeal.Read
import proofs.«106514_g17257178595387_cont_8to1_146_2_alg».proof.Proof.Result
import proofs.«106514_g17257178595387_cont_8to1_146_2_alg».proof.Proof.RefJoined
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the joined projection of those arguments:
    the kernel program by its stacked output read at [50000, 256], the reference by joining first. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.Joined.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
